-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x320000 32) (main_arg2 : FVec F S256x256 .f32) (main_arg3 : FVec F S256 .f32) (main_arg4 : FVec F S256x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x256 : Shape := ⟨2, ![50000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x320000 : Shape := ⟨2, ![1, 320000]⟩
abbrev S320000 : Shape := ⟨1, ![320000]⟩
abbrev S370000 : Shape := ⟨1, ![370000]⟩
abbrev S_ : Shape := ⟨0, ![]⟩
abbrev S370000x1 : Shape := ⟨2, ![370000, 1]⟩
abbrev S1000x256 : Shape := ⟨2, ![1000, 256]⟩
abbrev S370000x256 : Shape := ⟨2, ![370000, 256]⟩
abbrev S1x256 : Shape := ⟨2, ![1, 256]⟩
abbrev S50000x128 : Shape := ⟨2, ![50000, 128]⟩
abbrev S1000x128 : Shape := ⟨2, ![1000, 128]⟩
abbrev S370000x128 : Shape := ⟨2, ![370000, 128]⟩
abbrev S1x128 : Shape := ⟨2, ![1, 128]⟩

abbrev nBuf : Space → Nat
  | .hbm => 89
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S50000, .i32⟩
  | .hbm, ⟨7, _⟩ => ⟨S1x320000, .i32⟩
  | .hbm, ⟨8, _⟩ => ⟨S320000, .i32⟩
  | .hbm, ⟨9, _⟩ => ⟨S370000, .i32⟩
  | .hbm, ⟨10, _⟩ => ⟨S1x320000, .i32⟩
  | .hbm, ⟨11, _⟩ => ⟨S320000, .i32⟩
  | .hbm, ⟨12, _⟩ => ⟨S370000, .i32⟩
  | .hbm, ⟨13, _⟩ => ⟨S_, .f32⟩
  | .hbm, ⟨14, _⟩ => ⟨S370000, .f32⟩
  | .hbm, ⟨15, _⟩ => ⟨S_, .f32⟩
  | .hbm, ⟨16, _⟩ => ⟨S50000, .f32⟩
  | .hbm, ⟨17, _⟩ => ⟨S370000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S370000, .i32⟩
  | .hbm, ⟨29, _⟩ => ⟨S370000, .i1⟩
  | .hbm, ⟨30, _⟩ => ⟨S_, .i32⟩
  | .hbm, ⟨31, _⟩ => ⟨S370000, .i32⟩
  | .hbm, ⟨32, _⟩ => ⟨S370000, .i32⟩
  | .hbm, ⟨33, _⟩ => ⟨S370000, .i32⟩
  | .hbm, ⟨34, _⟩ => ⟨S370000x1, .i32⟩
  | .hbm, ⟨35, _⟩ => ⟨S370000, .f32⟩
  | .hbm, ⟨36, _⟩ => ⟨S_, .i32⟩
  | .hbm, ⟨37, _⟩ => ⟨S370000, .i32⟩
  | .hbm, ⟨38, _⟩ => ⟨S370000, .i1⟩
  | .hbm, ⟨39, _⟩ => ⟨S_, .i32⟩
  | .hbm, ⟨40, _⟩ => ⟨S370000, .i32⟩
  | .hbm, ⟨41, _⟩ => ⟨S370000, .i32⟩
  | .hbm, ⟨42, _⟩ => ⟨S370000, .i32⟩
  | .hbm, ⟨43, _⟩ => ⟨S370000x1, .i32⟩
  | .hbm, ⟨44, _⟩ => ⟨S370000, .f32⟩
  | .hbm, ⟨45, _⟩ => ⟨S370000, .f32⟩
  | .hbm, ⟨46, _⟩ => ⟨S50000x256, .f32⟩
  | .hbm, ⟨47, _⟩ => ⟨S_, .i32⟩
  | .hbm, ⟨48, _⟩ => ⟨S370000, .i32⟩
  | .hbm, ⟨49, _⟩ => ⟨S370000, .i1⟩
  | .hbm, ⟨50, _⟩ => ⟨S_, .i32⟩
  | .hbm, ⟨51, _⟩ => ⟨S370000, .i32⟩
  | .hbm, ⟨52, _⟩ => ⟨S370000, .i32⟩
  | .hbm, ⟨53, _⟩ => ⟨S370000, .i32⟩
  | .hbm, ⟨54, _⟩ => ⟨S370000x1, .i32⟩
  | .hbm, ⟨55, _⟩ => ⟨S370000x256, .f32⟩
  | .hbm, ⟨56, _⟩ => ⟨S370000x1, .f32⟩
  | .hbm, ⟨57, _⟩ => ⟨S370000x256, .f32⟩
  | .hbm, ⟨58, _⟩ => ⟨S370000x256, .f32⟩
  | .hbm, ⟨59, _⟩ => ⟨S_, .f32⟩
  | .hbm, ⟨60, _⟩ => ⟨S50000x256, .f32⟩
  | .hbm, ⟨61, _⟩ => ⟨S370000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x128, .f32⟩
  | .hbm, ⟨70, _⟩ => ⟨S_, .i32⟩
  | .hbm, ⟨71, _⟩ => ⟨S370000, .i32⟩
  | .hbm, ⟨72, _⟩ => ⟨S370000, .i1⟩
  | .hbm, ⟨73, _⟩ => ⟨S_, .i32⟩
  | .hbm, ⟨74, _⟩ => ⟨S370000, .i32⟩
  | .hbm, ⟨75, _⟩ => ⟨S370000, .i32⟩
  | .hbm, ⟨76, _⟩ => ⟨S370000, .i32⟩
  | .hbm, ⟨77, _⟩ => ⟨S370000x1, .i32⟩
  | .hbm, ⟨78, _⟩ => ⟨S370000x128, .f32⟩
  | .hbm, ⟨79, _⟩ => ⟨S370000x1, .f32⟩
  | .hbm, ⟨80, _⟩ => ⟨S370000x128, .f32⟩
  | .hbm, ⟨81, _⟩ => ⟨S370000x128, .f32⟩
  | .hbm, ⟨82, _⟩ => ⟨S_, .f32⟩
  | .hbm, ⟨83, _⟩ => ⟨S50000x128, .f32⟩
  | .hbm, ⟨84, _⟩ => ⟨S370000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S256x128, .f32⟩
  | .local _ .vmem, ⟨8, _⟩ => ⟨S1000x128, .f32⟩
  | .local _ .vmem, ⟨9, _⟩ => ⟨S1000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S370000x1_S370000x256_0_1 : S370000x1.BroadcastsInDim S370000x256 (![0, 1] : Fin 2 → Fin S370000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  inb_S1000x128_S1000x128_0_0 : ∀ a, (![0, 0] : Fin 2 → Nat) a + S1000x128.size a ≤ S1000x128.size a
  h_S1000x128 : 0 < S1000x128.numel
  bcast_S370000x1_S370000x128_0_1 : S370000x1.BroadcastsInDim S370000x128 (![0, 1] : Fin 2 → Fin S370000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  dot_S1000x256_S256x256_S1000x256_1_0_0_1_n_n_wf : DotDims.WF S1000x256 S256x256 S1000x256 [1] [0] [0] [1] [] []
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1
  dot_S1000x256_S256x128_S1000x128_1_0_0_1_n_n_wf : DotDims.WF S1000x256 S256x128 S1000x128 [1] [0] [0] [1] [] []
  gather_S50000x128_S370000x1_S370000x128_1_0_n_n_0_1_1128_wf : GatherDims.WF S50000x128 S370000x1 S370000x128 [1] [0] [] [0] [] 1 ![1, 128]
  scatter_S50000x128_S370000x1_S370000x128_1_0_0_1_wf : ScatterDims.WF S50000x128 S370000x1 S370000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S50000x128.size a
  hwx1_2 : ∀ i : grid1.Coords, EltTy.bits .f32 = 32 ∨ (Rect.block (s := S50000x128) S1000x128.size (cc1_transform_2 i) (hinb1_2 i)).WholeWords (EltTy.packing .f32)

variable [Facts₀]

def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S50000x128_S370000x1_S370000x128_1_0_n_n_0_1_1128 : GatherDims S50000x128 S370000x1 S370000x128 where
  offsetDims := [1]
  collapsedSliceDims := [0]
  operandBatchingDims := []
  startIndicesBatchingDims := []
  startIndexMap := [0]
  indexVectorDim := 1
  sliceSizes := ![1, 128]
  wf := gather_S50000x128_S370000x1_S370000x128_1_0_n_n_0_1_1128_wf
def scatter_S50000x128_S370000x1_S370000x128_1_0_0_1 : ScatterDims S50000x128 S370000x1 S370000x128 where
  updateWindowDims := [1]
  insertedWindowDims := [0]
  scatterDimsToOperandDims := [0]
  indexVectorDim := 1
  wf := scatter_S50000x128_S370000x1_S370000x128_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x320000 : Shape := ⟨2, ![2, 320000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x320000 : Shape := ⟨2, ![1, 320000]⟩
abbrev S320000 : Shape := ⟨1, ![320000]⟩
abbrev S370000 : Shape := ⟨1, ![370000]⟩
abbrev S_ : Shape := ⟨0, ![]⟩
abbrev S370000x1 : Shape := ⟨2, ![370000, 1]⟩
abbrev S370000x256 : Shape := ⟨2, ![370000, 256]⟩
abbrev S1x256 : Shape := ⟨2, ![1, 256]⟩
abbrev S50000x128 : Shape := ⟨2, ![50000, 128]⟩
abbrev S370000x128 : Shape := ⟨2, ![370000, 128]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x320000, .i32⟩
  | 2 => ⟨S256x256, .f32⟩
  | 3 => ⟨S256, .f32⟩
  | 4 => ⟨S256x128, .f32⟩
  | 5 => ⟨S128, .f32⟩
  | 6 => ⟨S50000x256, .f32⟩
  | 7 => ⟨S50000, .i32⟩
  | 8 => ⟨S1x320000, .i32⟩
  | 9 => ⟨S320000, .i32⟩
  | 10 => ⟨S370000, .i32⟩
  | 11 => ⟨S1x320000, .i32⟩
  | 12 => ⟨S320000, .i32⟩
  | 13 => ⟨S370000, .i32⟩
  | 14 => ⟨S_, .f32⟩
  | 15 => ⟨S370000, .f32⟩
  | 16 => ⟨S_, .f32⟩
  | 17 => ⟨S50000, .f32⟩
  | 18 => ⟨S370000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S370000, .i32⟩
  | 30 => ⟨S370000, .i1⟩
  | 31 => ⟨S_, .i32⟩
  | 32 => ⟨S370000, .i32⟩
  | 33 => ⟨S370000, .i32⟩
  | 34 => ⟨S370000, .i32⟩
  | 35 => ⟨S370000x1, .i32⟩
  | 36 => ⟨S370000, .f32⟩
  | 37 => ⟨S_, .i32⟩
  | 38 => ⟨S370000, .i32⟩
  | 39 => ⟨S370000, .i1⟩
  | 40 => ⟨S_, .i32⟩
  | 41 => ⟨S370000, .i32⟩
  | 42 => ⟨S370000, .i32⟩
  | 43 => ⟨S370000, .i32⟩
  | 44 => ⟨S370000x1, .i32⟩
  | 45 => ⟨S370000, .f32⟩
  | 46 => ⟨S370000, .f32⟩
  | 47 => ⟨S_, .i32⟩
  | 48 => ⟨S370000, .i32⟩
  | 49 => ⟨S370000, .i1⟩
  | 50 => ⟨S_, .i32⟩
  | 51 => ⟨S370000, .i32⟩
  | 52 => ⟨S370000, .i32⟩
  | 53 => ⟨S370000, .i32⟩
  | 54 => ⟨S370000x1, .i32⟩
  | 55 => ⟨S370000x256, .f32⟩
  | 56 => ⟨S370000x1, .f32⟩
  | 57 => ⟨S370000x256, .f32⟩
  | 58 => ⟨S370000x256, .f32⟩
  | 59 => ⟨S_, .f32⟩
  | 60 => ⟨S50000x256, .f32⟩
  | 61 => ⟨S370000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000x128, .f32⟩
  | 70 => ⟨S50000, .i32⟩
  | 71 => ⟨S1x320000, .i32⟩
  | 72 => ⟨S320000, .i32⟩
  | 73 => ⟨S370000, .i32⟩
  | 74 => ⟨S1x320000, .i32⟩
  | 75 => ⟨S320000, .i32⟩
  | 76 => ⟨S370000, .i32⟩
  | 77 => ⟨S_, .f32⟩
  | 78 => ⟨S370000, .f32⟩
  | 79 => ⟨S_, .f32⟩
  | 80 => ⟨S50000, .f32⟩
  | 81 => ⟨S370000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S370000, .i32⟩
  | 93 => ⟨S370000, .i1⟩
  | 94 => ⟨S_, .i32⟩
  | 95 => ⟨S370000, .i32⟩
  | 96 => ⟨S370000, .i32⟩
  | 97 => ⟨S370000, .i32⟩
  | 98 => ⟨S370000x1, .i32⟩
  | 99 => ⟨S370000, .f32⟩
  | 100 => ⟨S_, .i32⟩
  | 101 => ⟨S370000, .i32⟩
  | 102 => ⟨S370000, .i1⟩
  | 103 => ⟨S_, .i32⟩
  | 104 => ⟨S370000, .i32⟩
  | 105 => ⟨S370000, .i32⟩
  | 106 => ⟨S370000, .i32⟩
  | 107 => ⟨S370000x1, .i32⟩
  | 108 => ⟨S370000, .f32⟩
  | 109 => ⟨S370000, .f32⟩
  | 110 => ⟨S_, .i32⟩
  | 111 => ⟨S370000, .i32⟩
  | 112 => ⟨S370000, .i1⟩
  | 113 => ⟨S_, .i32⟩
  | 114 => ⟨S370000, .i32⟩
  | 115 => ⟨S370000, .i32⟩
  | 116 => ⟨S370000, .i32⟩
  | 117 => ⟨S370000x1, .i32⟩
  | 118 => ⟨S370000x128, .f32⟩
  | 119 => ⟨S370000x1, .f32⟩
  | 120 => ⟨S370000x128, .f32⟩
  | 121 => ⟨S370000x128, .f32⟩
  | 122 => ⟨S_, .f32⟩
  | 123 => ⟨S50000x128, .f32⟩
  | 124 => ⟨S370000x1, .i32⟩
  | 125 => ⟨S50000x128, .f32⟩
  | 126 => ⟨S1x128, .f32⟩
  | 127 => ⟨S50000x128, .f32⟩
  | _ => ⟨S50000x256, .f32⟩

abbrev hbmTy0_1 (i : Nat) : BufTy := match i % 128 with
  | 0 => ⟨S50000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S50000_S370000_d0 : Shape.Concatenates [S320000, S50000] S370000 0
  slices_S2x320000_S1x320000_1_0 : S2x320000.Slices ![1, 0] S1x320000
  bcast_S_S370000 : S_.BroadcastsInDim S370000 (![] : Fin 0 → Fin S370000.rank)
  bcast_S_S50000 : S_.BroadcastsInDim S50000 (![] : Fin 0 → Fin S50000.rank)
  bcast_S370000_S370000x1_0 : S370000.BroadcastsInDim S370000x1 (![0] : Fin 1 → Fin S370000x1.rank)
  bcast_S370000x1_S370000x256_0_1 : S370000x1.BroadcastsInDim S370000x256 (![0, 1] : Fin 2 → Fin S370000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S370000x1_S370000x128_0_1 : S370000x1.BroadcastsInDim S370000x128 (![0, 1] : Fin 2 → Fin S370000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x256_S256x256_S50000x256_1_0_0_1_n_n_wf : DotDims.WF S50000x256 S256x256 S50000x256 [1] [0] [0] [1] [] []
  scatter_S50000_S370000x1_S370000_n_0_0_1_wf : ScatterDims.WF S50000 S370000x1 S370000 [] [0] [0] 1
  gather_S50000_S370000x1_S370000_n_0_n_n_0_1_1_wf : GatherDims.WF S50000 S370000x1 S370000 [] [0] [] [0] [] 1 ![1]
  gather_S50000x256_S370000x1_S370000x256_1_0_n_n_0_1_1256_wf : GatherDims.WF S50000x256 S370000x1 S370000x256 [1] [0] [] [0] [] 1 ![1, 256]
  scatter_S50000x256_S370000x1_S370000x256_1_0_0_1_wf : ScatterDims.WF S50000x256 S370000x1 S370000x256 [1] [0] [0] 1
  dot_S50000x256_S256x128_S50000x128_1_0_0_1_n_n_wf : DotDims.WF S50000x256 S256x128 S50000x128 [1] [0] [0] [1] [] []
  gather_S50000x128_S370000x1_S370000x128_1_0_n_n_0_1_1128_wf : GatherDims.WF S50000x128 S370000x1 S370000x128 [1] [0] [] [0] [] 1 ![1, 128]
  scatter_S50000x128_S370000x1_S370000x128_1_0_0_1_wf : ScatterDims.WF S50000x128 S370000x1 S370000x128 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S370000x1_S370000_n_0_0_1 : ScatterDims S50000 S370000x1 S370000 where
  updateWindowDims := []
  insertedWindowDims := [0]
  scatterDimsToOperandDims := [0]
  indexVectorDim := 1
  wf := scatter_S50000_S370000x1_S370000_n_0_0_1_wf
def gather_S50000_S370000x1_S370000_n_0_n_n_0_1_1 : GatherDims S50000 S370000x1 S370000 where
  offsetDims := []
  collapsedSliceDims := [0]
  operandBatchingDims := []
  startIndicesBatchingDims := []
  startIndexMap := [0]
  indexVectorDim := 1
  sliceSizes := ![1]
  wf := gather_S50000_S370000x1_S370000_n_0_n_n_0_1_1_wf
def gather_S50000x256_S370000x1_S370000x256_1_0_n_n_0_1_1256 : GatherDims S50000x256 S370000x1 S370000x256 where
  offsetDims := [1]
  collapsedSliceDims := [0]
  operandBatchingDims := []
  startIndicesBatchingDims := []
  startIndexMap := [0]
  indexVectorDim := 1
  sliceSizes := ![1, 256]
  wf := gather_S50000x256_S370000x1_S370000x256_1_0_n_n_0_1_1256_wf
def scatter_S50000x256_S370000x1_S370000x256_1_0_0_1 : ScatterDims S50000x256 S370000x1 S370000x256 where
  updateWindowDims := [1]
  insertedWindowDims := [0]
  scatterDimsToOperandDims := [0]
  indexVectorDim := 1
  wf := scatter_S50000x256_S370000x1_S370000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S370000x1_S370000x128_1_0_n_n_0_1_1128 : GatherDims S50000x128 S370000x1 S370000x128 where
  offsetDims := [1]
  collapsedSliceDims := [0]
  operandBatchingDims := []
  startIndicesBatchingDims := []
  startIndexMap := [0]
  indexVectorDim := 1
  sliceSizes := ![1, 128]
  wf := gather_S50000x128_S370000x1_S370000x128_1_0_n_n_0_1_1128_wf
def scatter_S50000x128_S370000x1_S370000x128_1_0_0_1 : ScatterDims S50000x128 S370000x1 S370000x128 where
  updateWindowDims := [1]
  insertedWindowDims := [0]
  scatterDimsToOperandDims := [0]
  indexVectorDim := 1
  wf := scatter_S50000x128_S370000x1_S370000x128_1_0_0_1_wf

class Facts : Prop extends Facts₀ where

variable [Facts]
-- ==== Proof.Chain.lean ====
/-
  The graph-convolution host chain, as a few named functions that are never opened.

  Kernel and reference lower the same jax code around their matrix products, so both programs apply the same host
  operations, in the same order, to whatever the product left. From the edge list ei [2, 320000]:
    dst ei    destinations: row 0 of ei followed by 0 … 49999 (one self-loop per node), 370000 entries;
    src ei    sources: row 1 of ei followed by 0 … 49999;
    wrap v    numpy's reading of a negative index: v + 50000 where v < 0, v elsewhere;
    deg ei    the in-degree with self-loops: ones scatter-added at dst;
    dinv ei   deg^(-1/2) where deg > 0, zero elsewhere;
    ew ei     the symmetric normalisation of edge e: dinv at its destination times dinv at its source.
  One layer on features h [50000, n], for n = 256 and n = 128: gather row src e of h for every edge e, scale it by
  ew e, scatter-add it into row dst e of a zero array, add the bias row to every row. Between the layers a rectifier.
  The two programs differ only in how h is made, so everything here takes h as an argument; no later proof looks
  inside a gather or a scatter. Generic in the float family.
-/
import proofs.«146569_j32315333935770_1_alg».proof.ReferenceIdeal
import proofs.«146569_j32315333935770_1_alg».proof.Proof.Gen.ReferenceIdeal

noncomputable section

namespace Cert.Chain

open Cert.ReferenceIdeal Cert.ReferenceIdeal.Gen Idealize.ShloMosaic

variable {F : FTy → Type} [FloatOps F]

/-- Destinations: row 0 of the edge list, then every node once. -/
def dst (ei : (⟨S2x320000, .i32⟩ : BufTy).Contents (Elt F)) : (⟨S370000, .i32⟩ : BufTy).Contents (Elt F) :=
  concatenate S370000 0 [⟨S320000, (shapeCast _ (extractStridedSlice S1x320000 ![0, 0] ei slices_S2x320000_S1x320000_0_0) shapeCasts_S1x320000_S320000)⟩, ⟨S50000, (iotaInDim S50000 32 0)⟩] concatenates_S320000_S50000_S370000_d0

/-- Sources: row 1 of the edge list, then every node once. -/
def src (ei : (⟨S2x320000, .i32⟩ : BufTy).Contents (Elt F)) : (⟨S370000, .i32⟩ : BufTy).Contents (Elt F) :=
  concatenate S370000 0 [⟨S320000, (shapeCast _ (extractStridedSlice S1x320000 ![1, 0] ei slices_S2x320000_S1x320000_1_0) shapeCasts_S1x320000_S320000)⟩, ⟨S50000, (iotaInDim S50000 32 0)⟩] concatenates_S320000_S50000_S370000_d0

/-- A negative index counts from the end: v + 50000 where v < 0. -/
def wrap (v : (⟨S370000, .i32⟩ : BufTy).Contents (Elt F)) : (⟨S370000, .i32⟩ : BufTy).Contents (Elt F) :=
  select (cmpi .slt v (broadcastInDim S370000 ![] bcast_S_S370000 (constantI S_ 32 0#32))) (addi v (broadcastInDim S370000 ![] bcast_S_S370000 (constantI S_ 32 50000#32))) v

/-- In-degree with self-loops: a one scatter-added at every destination. -/
def deg (ei : (⟨S2x320000, .i32⟩ : BufTy).Contents (Elt F)) : (⟨S50000, .f32⟩ : BufTy).Contents (Elt F) :=
  Host.scatterAdd scatter_S50000_S370000x1_S370000_n_0_0_1 (broadcastInDim S50000 ![] bcast_S_S50000 (constant S_ .f32 0x00000000#32)) (broadcastInDim S370000x1 ![0] bcast_S370000_S370000x1_0 (dst ei)) (broadcastInDim S370000 ![] bcast_S_S370000 (constant S_ .f32 0x3F800000#32))

/-- deg^(-1/2) where the degree is positive, zero elsewhere. -/
def dinv (ei : (⟨S2x320000, .i32⟩ : BufTy).Contents (Elt F)) : (⟨S50000, .f32⟩ : BufTy).Contents (Elt F) :=
  select (cmpf (F := F) .ogt (deg ei) (broadcastInDim S50000 ![] bcast_S_S50000 (constant S_ .f32 0x00000000#32))) (Host.rsqrt (deg ei)) (broadcastInDim S50000 ![] bcast_S_S50000 (id (constant S_ .f32 0x00000000#32)))

/-- The weight of edge e: dinv at its destination times dinv at its source. -/
def ew (ei : (⟨S2x320000, .i32⟩ : BufTy).Contents (Elt F)) : (⟨S370000, .f32⟩ : BufTy).Contents (Elt F) :=
  mulf (Host.gather gather_S50000_S370000x1_S370000_n_0_n_n_0_1_1 (dinv ei) (broadcastInDim S370000x1 ![0] bcast_S370000_S370000x1_0 (wrap (dst ei)))) (Host.gather gather_S50000_S370000x1_S370000_n_0_n_n_0_1_1 (dinv ei) (broadcastInDim S370000x1 ![0] bcast_S370000_S370000x1_0 (wrap (src ei))))

/-- One layer's aggregation on features h [50000, 256]: weighted neighbour sum plus the bias row. -/
def layer256 (h : (⟨S50000x256, .f32⟩ : BufTy).Contents (Elt F)) (ei : (⟨S2x320000, .i32⟩ : BufTy).Contents (Elt F))
    (b : (⟨S256, .f32⟩ : BufTy).Contents (Elt F)) : (⟨S50000x256, .f32⟩ : BufTy).Contents (Elt F) :=
  addf (Host.scatterAdd scatter_S50000x256_S370000x1_S370000x256_1_0_0_1 (broadcastInDim S50000x256 ![] bcast_S_S50000x256 (constant S_ .f32 0x00000000#32)) (broadcastInDim S370000x1 ![0] bcast_S370000_S370000x1_0 (dst ei)) (mulf (Host.gather gather_S50000x256_S370000x1_S370000x256_1_0_n_n_0_1_1256 h (broadcastInDim S370000x1 ![0] bcast_S370000_S370000x1_0 (wrap (src ei)))) (broadcastInDim S370000x256 ![0, 1] bcast_S370000x1_S370000x256_0_1 (broadcastInDim S370000x1 ![0] bcast_S370000_S370000x1_0 (ew ei))))) (broadcastInDim S50000x256 ![0, 1] bcast_S1x256_S50000x256_0_1 (broadcastInDim S1x256 ![1] bcast_S256_S1x256_1 b))

/-- The rectifier between the layers. -/
def relu256 (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- The same aggregation on features h [50000, 128]. -/
def layer128 (h : (⟨S50000x128, .f32⟩ : BufTy).Contents (Elt F)) (ei : (⟨S2x320000, .i32⟩ : BufTy).Contents (Elt F))
    (b : (⟨S128, .f32⟩ : BufTy).Contents (Elt F)) : (⟨S50000x128, .f32⟩ : BufTy).Contents (Elt F) :=
  addf (Host.scatterAdd scatter_S50000x128_S370000x1_S370000x128_1_0_0_1 (broadcastInDim S50000x128 ![] bcast_S_S50000x128 (constant S_ .f32 0x00000000#32)) (broadcastInDim S370000x1 ![0] bcast_S370000_S370000x1_0 (dst ei)) (mulf (Host.gather gather_S50000x128_S370000x1_S370000x128_1_0_n_n_0_1_1128 h (broadcastInDim S370000x1 ![0] bcast_S370000_S370000x1_0 (wrap (src ei)))) (broadcastInDim S370000x128 ![0, 1] bcast_S370000x1_S370000x128_0_1 (broadcastInDim S370000x1 ![0] bcast_S370000_S370000x1_0 (ew ei))))) (broadcastInDim S50000x128 ![0, 1] bcast_S1x128_S50000x128_0_1 (broadcastInDim S1x128 ![1] bcast_S128_S1x128_1 b))

end Cert.Chain

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.Payload.lean ====
/-
  What each kernel body stores, read at one entry.

  Both pallas_calls run one body on a block of 1000 rows: the block x [1000, 256] and the whole weight matrix
  w [256, n] (n = 256 in the first call, 128 in the second) are narrowed to bf16, which on the extended reals is the
  identity, and multiplied on the matrix unit into a zero accumulator. So entry (p, q) of the stored block is the sum
  over k of x (p, k) · w (k, q), nothing else.
-/
import proofs.«146569_j32315333935770_1_alg».proof.Proof.Gen.KernelIdeal.Skeleton
import proofs.«146569_j32315333935770_1_alg».proof.Proof.LibBlocks

noncomputable section

open scoped BigOperators

namespace Cert.KernelIdeal.Bridge

open Cert.KernelIdeal Cert.KernelIdeal.Gen Idealize.ShloMosaic Idealize.ShloMosaic.ValueIdx

/-- The first call's dimension numbers are the plain rows-by-columns product 1000 × 256 by 256 × 256. -/
theorem dot0_plain : dot_S1000x256_S256x256_S1000x256_1_0_0_1_n_n = DotDims.plain 1000 256 256 := rfl

/-- The second call's are the plain product 1000 × 256 by 256 × 128. -/
theorem dot1_plain : dot_S1000x256_S256x128_S1000x128_1_0_0_1_n_n = DotDims.plain 1000 256 128 := rfl

/-- Entry (p, q) of the first body's stored block: the sum over k of x (p, k) · w (k, q). -/
theorem pay0_apply (x : Vec Ideal S1000x256 .f32) (w : Vec Ideal S256x256 .f32) (p : Fin 1000) (q : Fin 256) :
    k0_pay1 (F := Ideal) x w (ix2 p q) = ∑ k : Fin 256, x (ix2 p k) * w (ix2 k q) := by
  unfold k0_pay1
  show FloatOps.matmul dot_S1000x256_S256x256_S1000x256_1_0_0_1_n_n none (truncf (F := Ideal) .bf16 x bitsLt_bf16_f32)
    (truncf (F := Ideal) .bf16 w bitsLt_bf16_f32) (constant (F := Ideal) S1000x256 .f32 0x00000000#32) (ix2 p q) = _
  rw [Cert.LibBlocks.matmul_plain_apply _ dot0_plain]
  refine Finset.sum_congr rfl fun k _ => ?_
  rw [truncf_apply, truncf_apply]

/-- Entry (p, q) of the second body's stored block: the same sum, over the 128 columns of its weight matrix. -/
theorem pay1_apply (x : Vec Ideal S1000x256 .f32) (w : Vec Ideal S256x128 .f32) (p : Fin 1000) (q : Fin 128) :
    k1_pay1 (F := Ideal) x w (ix2 p q) = ∑ k : Fin 256, x (ix2 p k) * w (ix2 k q) := by
  unfold k1_pay1
  show FloatOps.matmul dot_S1000x256_S256x128_S1000x128_1_0_0_1_n_n none
    (truncf (F := Ideal) .bf16 (shapeCast S1000x256 x shapeCasts_S1000x256_S1000x256) bitsLt_bf16_f32)
    (truncf (F := Ideal) .bf16 w bitsLt_bf16_f32) (constant (F := Ideal) S1000x128 .f32 0x00000000#32) (ix2 p q) = _
  rw [Cert.LibBlocks.matmul_plain_apply _ dot1_plain]
  refine Finset.sum_congr rfl fun k _ => ?_
  rw [truncf_apply, truncf_apply, shapeCast_self]

end Cert.KernelIdeal.Bridge

end
-- ==== Proof.Product.lean ====
/-
  The product of an array of rows with a matrix as ONE function of the two, index by index.

  This is where the two programs meet. The reference multiplies the whole array [M, K] by the matrix [K, N] with one
  host dot_general; the kernel multiplies blocks of rows on the matrix unit and writes each block back to its place.
  On the extended reals both leave, at entry (r, q), the sum over k of x (r, k) · w (k, q): the same K terms in the
  same order, so no law of the extended reals is needed beyond reading each product at an entry.
-/
import proofs.«146569_j32315333935770_1_alg».proof.Proof.LibBlocks

noncomputable section

open scoped BigOperators

namespace Cert.Product

open Idealize.ShloMosaic Idealize.ShloMosaic.ValueIdx

variable {M K N : Nat}

/-- Entry i = (r, q) of x [M, K] times w [K, N]: the sum over k of x (r, k) · w (k, q). -/
def rowsProd (x : FVec Ideal ⟨2, ![M, K]⟩ .f32) (w : FVec Ideal ⟨2, ![K, N]⟩ .f32) : FVec Ideal ⟨2, ![M, N]⟩ .f32 :=
  fun i => ∑ k : Fin K, x (ix2 (⟨(i 0).val, idx2_lt0 i⟩ : Fin M) k) * w (ix2 k (⟨(i 1).val, idx2_lt1 i⟩ : Fin N))

/-- The same at an entry given by its row and column. -/
theorem rowsProd_apply (x : FVec Ideal ⟨2, ![M, K]⟩ .f32) (w : FVec Ideal ⟨2, ![K, N]⟩ .f32) (r : Fin M) (q : Fin N) :
    rowsProd x w (ix2 r q) = ∑ k : Fin K, x (ix2 r k) * w (ix2 k q) := rfl

/-- The host's rows-by-columns dot_general is that function. -/
theorem dotGeneral_eq_rowsProd (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) :
    Host.dotGeneral (F := Ideal) d none x w = rowsProd x w := by
  funext i
  obtain ⟨r, q, rfl⟩ : ∃ (r : Fin M) (q : Fin N), i = ix2 r q := ⟨i 0, i 1, eq_ix2 i⟩
  show FloatOps.dotGeneral d none .single x w (ix2 r q) = _
  rw [Cert.LibBlocks.dotGeneral_plain_apply d hd, rowsProd_apply]

end Cert.Product

end
-- ==== Proof.Region0.lean ====
/-
  The first pallas_call's output array after its region: the whole product of its two operands.

  The region's grid has 50 points; point t fetches rows 1000 t … 1000 t + 999 of the array x [50000, 256] and the
  whole weight matrix w [256, 256], stores the block's product, and writes it back to rows 1000 t … 1000 t + 999 of the
  output [50000, 256]. Entry (p, q) of the block stored at t is the sum over k of x (1000 t + p, k) · w (k, q), which is
  entry (1000 t + p, q) of the whole product x · w. Every row r lies in exactly the block r / 1000, so the write-backs
  cover the output and it ends holding x · w, whatever x and w the region found (stated at the region's entry contents V).
-/
import proofs.«146569_j32315333935770_1_alg».proof.Proof.Gen.KernelIdeal.Frame
import proofs.«146569_j32315333935770_1_alg».proof.Proof.Payload
import proofs.«146569_j32315333935770_1_alg».proof.Proof.Product

set_option maxRecDepth 16384

noncomputable section

open scoped BigOperators

namespace Cert.KernelIdeal.Bridge

open Cert.KernelIdeal Cert.KernelIdeal.Gen Cert.Product
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three index maps over the grid: the row windows sit at block row t, column block 0; the weight window at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the rows window's block at point t is row 1000 t + p of its array. -/
theorem rows0_apply (c : Dev nD) (t : Fin cfg0.N) (p : Fin 1000) (k : Fin 256) (r : Fin 50000)
    (hr : r.val = t.val * 1000 + p.val) :
    (iblk0 V c 0 t : Vec Ideal S1000x256 .f32) (ix2 p k) = (V c main_arg0 : S50000x256.Idx → Elt Ideal .f32) (ix2 r k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 256 + 1 * k.val = k.val; rw [e1]; omega

/-- The weight window's block is the whole weight matrix at every point. -/
theorem weights0_apply (c : Dev nD) (t : Fin cfg0.N) (k : Fin 256) (q : Fin 256) :
    (iblk0 V c 1 t : Vec Ideal S256x256 .f32) (ix2 k q) = (V c main_arg2 : S256x256.Idx → Elt Ideal .f32) (ix2 k q) := by
  obtain ⟨-, -, e2, e3, -⟩ := idx0 t
  unfold iblk0
  rw [View.read_apply]
  show V c main_arg2 _ = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 256 + 1 * q.val = q.val; rw [e3]; omega

/-- Entry y of the block stored at point t is entry i of the whole product, when i is y moved down by 1000 t rows. -/
theorem block0_entry (c : Dev nD) (t : Fin cfg0.N) (y : S1000x256.Idx) (i : S50000x256.Idx)
    (h0 : (i 0).val = t.val * 1000 + (y 0).val) (h1 : (i 1).val = (y 1).val) :
    k0_pay1 (F := Ideal) (iblk0 V c 0 t) (iblk0 V c 1 t) y
      = rowsProd (M := 50000) (K := 256) (N := 256) (V c main_arg0) (V c main_arg2) i := by
  obtain ⟨p, q, rfl⟩ : ∃ (p : Fin 1000) (q : Fin 256), y = ix2 p q := ⟨y 0, y 1, eq_ix2 y⟩
  obtain ⟨r, s, rfl⟩ : ∃ (r : Fin 50000) (s : Fin 256), i = ix2 r s := ⟨i 0, i 1, eq_ix2 i⟩
  have hr : r.val = t.val * 1000 + p.val := h0
  obtain rfl : s = q := Fin.ext h1
  refine (pay0_apply (iblk0 V c 0 t) (iblk0 V c 1 t) p s).trans ?_
  rw [rowsProd_apply]
  refine Finset.sum_congr rfl fun k _ => ?_
  rw [rows0_apply V c t p k r hr, weights0_apply V c t k s]

theorem zeroOffsets0 : (![0, 0] : Fin 2 → Nat) = fun _ => 0 := Cert.LibBlocks.off2_zero

/-- What point t writes back is block t of the whole product of the arrays the region found. -/
theorem flushed0 (c : Dev nD) (t : Fin cfg0.N) :
    (dat0 V c).flushed 2 t = ((cfg0.win 2).blk t).view.read (Elt Ideal)
      (rowsProd (M := 50000) (K := 256) (N := 256) (V c main_arg0) (V c main_arg2)) := by
  show (cfg0.win 2).cut (grid0.coords t) ((dat0 V c).after 2 t) = _
  rw [after0_2]
  unfold out0_2
  rw [View.canon_unit_zero zeroOffsets0]
  simp only [View.ld_unit_zero (S := S1000x256) zeroOffsets0, View.ld_unit_zero (S := S256x256) zeroOffsets0]
  obtain ⟨-, -, -, -, e4, e5⟩ := idx0 t
  funext j
  show k0_pay1 (F := Ideal) (iblk0 V c 0 t) (iblk0 V c 1 t) j
    = rowsProd (M := 50000) (K := 256) (N := 256) (V c main_arg0) (V c main_arg2) (((cfg0.win 2).blk t).view.emb j)
  refine block0_entry V c t j _ ?_ ?_
  · show win0_2.index t (0 : Fin 2) * 1000 + 1 * (j 0).val = t.val * 1000 + (j 0).val
    rw [e4]; omega
  · show win0_2.index t (1 : Fin 2) * 256 + 1 * (j 1).val = (j 1).val
    rw [e5]; omega

/-- An index of the output is in point t's block iff each coordinate is in the block's range on its axis. -/
theorem mem_block0 (t : Fin cfg0.N) (i : S50000x256.Idx) :
    i ∈ ((cfg0.win 2).blk t).view.set ↔ ∀ a : Fin 2, win0_2.index t a * S1000x256.size a ≤ (i a).val
      ∧ (i a).val < win0_2.index t a * S1000x256.size a + S1000x256.size a := by
  show i ∈ ((View.whole main_v30).slice (win0_2.rect t)).set ↔ _
  rw [View.set_slice_whole, Rect.mem_set_unit]
  exact Iff.rfl

/-- Row r of the output lies in the block of point r / 1000, and every point writes its block back. -/
theorem covered0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ : ∃ t : Fin cfg0.N, t.val = (i 0).val / 1000 :=
    ⟨⟨(i 0).val / 1000, by rw [show cfg0.N = 50 from N_0]; omega⟩, rfl⟩
  obtain ⟨-, -, -, -, e4, e5⟩ := idx0 t
  refine ⟨t, flush0_2 t, ?_⟩
  rw [mem_block0]
  intro a
  match a with
  | ⟨0, _⟩ =>
    show win0_2.index t (0 : Fin 2) * 1000 ≤ (i 0).val ∧ (i 0).val < win0_2.index t (0 : Fin 2) * 1000 + 1000
    rw [e4, ht]; omega
  | ⟨1, _⟩ =>
    show win0_2.index t (1 : Fin 2) * 256 ≤ (i 1).val ∧ (i 1).val < win0_2.index t (1 : Fin 2) * 256 + 256
    rw [e5]; omega

/-- After the first region its output array holds the whole product of the rows array and the weight matrix it found. -/
theorem product0 (c : Dev nD) :
    (dat0 V c).arrAt 2 cfg0.N = rowsProd (M := 50000) (K := 256) (N := 256) (V c main_arg0) (V c main_arg2) :=
  (dat0 V c).arrAt_eq_of_cover 2 _ (fun t _ => flushed0 V c t) (covered0)

end Cert.KernelIdeal.Bridge

end
-- ==== Proof.Region1.lean ====
/-
  The second pallas_call's output array after its region: the whole product of its two operands.

  The region's grid has 50 points; point t fetches rows 1000 t … 1000 t + 999 of the array x [50000, 256] and the
  whole weight matrix w [256, 128], stores the block's product, and writes it back to rows 1000 t … 1000 t + 999 of the
  output [50000, 128]. Entry (p, q) of the block stored at t is the sum over k of x (1000 t + p, k) · w (k, q), which is
  entry (1000 t + p, q) of the whole product x · w. Every row r lies in exactly the block r / 1000, so the write-backs
  cover the output and it ends holding x · w, whatever x and w the region found (stated at the region's entry contents V).
-/
import proofs.«146569_j32315333935770_1_alg».proof.Proof.Gen.KernelIdeal.Frame
import proofs.«146569_j32315333935770_1_alg».proof.Proof.Payload
import proofs.«146569_j32315333935770_1_alg».proof.Proof.Product

set_option maxRecDepth 16384

noncomputable section

open scoped BigOperators

namespace Cert.KernelIdeal.Bridge

open Cert.KernelIdeal Cert.KernelIdeal.Gen Cert.Product
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three index maps over the grid: the row windows sit at block row t, column block 0; the weight window at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the rows window's block at point t is row 1000 t + p of its array. -/
theorem rows1_apply (c : Dev nD) (t : Fin cfg1.N) (p : Fin 1000) (k : Fin 256) (r : Fin 50000)
    (hr : r.val = t.val * 1000 + p.val) :
    (iblk1 V c 0 t : Vec Ideal S1000x256 .f32) (ix2 p k) = (V c main_v47 : S50000x256.Idx → Elt Ideal .f32) (ix2 r k) := by
  obtain ⟨e0, e1, -⟩ := idx1 t
  unfold iblk1
  rw [View.read_apply]
  show V c main_v47 _ = V c main_v47 _
  congr 1
  funext a
  apply Fin.ext
  match a with
  | ⟨0, _⟩ => show win1_0.index t (0 : Fin 2) * 1000 + 1 * p.val = r.val; rw [e0, hr]; omega
  | ⟨1, _⟩ => show win1_0.index t (1 : Fin 2) * 256 + 1 * k.val = k.val; rw [e1]; omega

/-- The weight window's block is the whole weight matrix at every point. -/
theorem weights1_apply (c : Dev nD) (t : Fin cfg1.N) (k : Fin 256) (q : Fin 128) :
    (iblk1 V c 1 t : Vec Ideal S256x128 .f32) (ix2 k q) = (V c main_arg4 : S256x128.Idx → Elt Ideal .f32) (ix2 k q) := by
  obtain ⟨-, -, e2, e3, -⟩ := idx1 t
  unfold iblk1
  rw [View.read_apply]
  show V c main_arg4 _ = V c main_arg4 _
  congr 1
  funext a
  apply Fin.ext
  match a with
  | ⟨0, _⟩ => show win1_1.index t (0 : Fin 2) * 256 + 1 * k.val = k.val; rw [e2]; omega
  | ⟨1, _⟩ => show win1_1.index t (1 : Fin 2) * 128 + 1 * q.val = q.val; rw [e3]; omega

/-- Entry y of the block stored at point t is entry i of the whole product, when i is y moved down by 1000 t rows. -/
theorem block1_entry (c : Dev nD) (t : Fin cfg1.N) (y : S1000x128.Idx) (i : S50000x128.Idx)
    (h0 : (i 0).val = t.val * 1000 + (y 0).val) (h1 : (i 1).val = (y 1).val) :
    k1_pay1 (F := Ideal) (iblk1 V c 0 t) (iblk1 V c 1 t) y
      = rowsProd (M := 50000) (K := 256) (N := 128) (V c main_v47) (V c main_arg4) i := by
  obtain ⟨p, q, rfl⟩ : ∃ (p : Fin 1000) (q : Fin 128), y = ix2 p q := ⟨y 0, y 1, eq_ix2 y⟩
  obtain ⟨r, s, rfl⟩ : ∃ (r : Fin 50000) (s : Fin 128), i = ix2 r s := ⟨i 0, i 1, eq_ix2 i⟩
  have hr : r.val = t.val * 1000 + p.val := h0
  obtain rfl : s = q := Fin.ext h1
  refine (pay1_apply (iblk1 V c 0 t) (iblk1 V c 1 t) p s).trans ?_
  rw [rowsProd_apply]
  refine Finset.sum_congr rfl fun k _ => ?_
  rw [rows1_apply V c t p k r hr, weights1_apply V c t k s]

theorem zeroOffsets1 : (![0, 0] : Fin 2 → Nat) = fun _ => 0 := Cert.LibBlocks.off2_zero

/-- What point t writes back is block t of the whole product of the arrays the region found. -/
theorem flushed1 (c : Dev nD) (t : Fin cfg1.N) :
    (dat1 V c).flushed 2 t = ((cfg1.win 2).blk t).view.read (Elt Ideal)
      (rowsProd (M := 50000) (K := 256) (N := 128) (V c main_v47) (V c main_arg4)) := by
  show (cfg1.win 2).cut (grid1.coords t) ((dat1 V c).after 2 t) = _
  rw [after1_2]
  unfold out1_2
  rw [View.canon_unit_zero zeroOffsets1]
  simp only [View.ld_unit_zero (S := S1000x256) zeroOffsets1, View.ld_unit_zero (S := S256x128) zeroOffsets1]
  obtain ⟨-, -, -, -, e4, e5⟩ := idx1 t
  funext j
  show k1_pay1 (F := Ideal) (iblk1 V c 0 t) (iblk1 V c 1 t) j
    = rowsProd (M := 50000) (K := 256) (N := 128) (V c main_v47) (V c main_arg4) (((cfg1.win 2).blk t).view.emb j)
  refine block1_entry V c t j _ ?_ ?_
  · show win1_2.index t (0 : Fin 2) * 1000 + 1 * (j 0).val = t.val * 1000 + (j 0).val
    rw [e4]; omega
  · show win1_2.index t (1 : Fin 2) * 128 + 1 * (j 1).val = (j 1).val
    rw [e5]; omega

/-- An index of the output is in point t's block iff each coordinate is in the block's range on its axis. -/
theorem mem_block1 (t : Fin cfg1.N) (i : S50000x128.Idx) :
    i ∈ ((cfg1.win 2).blk t).view.set ↔ ∀ a : Fin 2, win1_2.index t a * S1000x128.size a ≤ (i a).val
      ∧ (i a).val < win1_2.index t a * S1000x128.size a + S1000x128.size a := by
  show i ∈ ((View.whole main_v48).slice (win1_2.rect t)).set ↔ _
  rw [View.set_slice_whole, Rect.mem_set_unit]
  exact Iff.rfl

/-- Row r of the output lies in the block of point r / 1000, and every point writes its block back. -/
theorem covered1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 1000 :=
    ⟨⟨(i 0).val / 1000, by rw [show cfg1.N = 50 from N_1]; omega⟩, rfl⟩
  obtain ⟨-, -, -, -, e4, e5⟩ := idx1 t
  refine ⟨t, flush1_2 t, ?_⟩
  rw [mem_block1]
  intro a
  match a with
  | ⟨0, _⟩ =>
    show win1_2.index t (0 : Fin 2) * 1000 ≤ (i 0).val ∧ (i 0).val < win1_2.index t (0 : Fin 2) * 1000 + 1000
    rw [e4, ht]; omega
  | ⟨1, _⟩ =>
    show win1_2.index t (1 : Fin 2) * 128 ≤ (i 1).val ∧ (i 1).val < win1_2.index t (1 : Fin 2) * 128 + 128
    rw [e5]; omega

/-- After the second region its output array holds the whole product of the rows array and the weight matrix it found. -/
theorem product1 (c : Dev nD) :
    (dat1 V c).arrAt 2 cfg1.N = rowsProd (M := 50000) (K := 256) (N := 128) (V c main_v47) (V c main_arg4) :=
  (dat1 V c).arrAt_eq_of_cover 2 _ (fun t _ => flushed1 V c t) (covered1)

end Cert.KernelIdeal.Bridge

end
-- ==== Proof.KernelValue.lean ====
/-
  What the kernel program leaves in its result array, read back through @main.

  @main is six stretches of host operations around two regions. The buffers that matter, and what each holds at the
  boundaries (E the edge list, x, W1, b1, W2, b2 the other arguments, all as launched):
    entering region 0:  destinations dst E, sources src E, edge weights ew E (each computed once, before the first
                        region, and never written again); the arguments;
    leaving region 0:   H0, the first region's output array; everything above unchanged (a region writes its output only);
    entering region 1:  the rectified first layer relu (layer256 H0 E b1); dst, src, ew, W2, b2 unchanged;
    leaving region 1:   H1, the second region's output array; the rest unchanged;
    at the end:         the result, layer128 H1 E b2.
  On the extended reals H0 = x · W1 and H1 = (its rows array) · W2 by the two region modules, which gives the result as
  the host chain over the two rows-by-columns products. The chain's functions stay closed throughout.
-/
import proofs.«146569_j32315333935770_1_alg».proof.Proof.Gen.KernelIdeal.Frame
import proofs.«146569_j32315333935770_1_alg».proof.Proof.Chain
import proofs.«146569_j32315333935770_1_alg».proof.Proof.Region0
import proofs.«146569_j32315333935770_1_alg».proof.Proof.Region1

set_option maxRecDepth 16384

noncomputable section

namespace Cert.KernelIdeal.KValue

open Cert.KernelIdeal Cert.KernelIdeal.Gen Cert.Chain Cert.Product
open Idealize.ShloMosaic Idealize.ShloMosaic.TcCoe Idealize.SL.Sem Idealize.ShloMosaic.StableHlo

section AnyFloats

variable {F : FTy → Type} [FloatOps F]
variable (m : (ℓ : Loc nD τ sig) → Buf (Elt F) ℓ) (ρ : Dev nD → PrngReg)

/-! ## Entering region 0 -/

theorem enter0_dst (c : Dev nD) : W3 m ρ c (Proc.devRef .tc main_v3) = dst (m ((c.tc : Thread nD τ).loc main_arg1)) := by
  dsimp only [W3, W2, W1, hostOps0, hostOps0_1, hostOps0_2]
  after_results_simp
  rfl

theorem enter0_src (c : Dev nD) : W3 m ρ c (Proc.devRef .tc main_v6) = src (m ((c.tc : Thread nD τ).loc main_arg1)) := by
  dsimp only [W3, W2, W1, hostOps0, hostOps0_1, hostOps0_2]
  after_results_simp
  rfl

theorem enter0_ew (c : Dev nD) : W3 m ρ c (Proc.devRef .tc main_v29) = ew (m ((c.tc : Thread nD τ).loc main_arg1)) := by
  dsimp only [W3, W2, W1, hostOps0, hostOps0_1, hostOps0_2]
  after_results_simp
  rfl

theorem enter0_arg0 (c : Dev nD) : W3 m ρ c (Proc.devRef .tc main_arg0) = (m ((c.tc : Thread nD τ).loc main_arg0)) := by
  dsimp only [W3, W2, W1, hostOps0, hostOps0_1, hostOps0_2]
  after_results_simp

theorem enter0_arg2 (c : Dev nD) : W3 m ρ c (Proc.devRef .tc main_arg2) = (m ((c.tc : Thread nD τ).loc main_arg2)) := by
  dsimp only [W3, W2, W1, hostOps0, hostOps0_1, hostOps0_2]
  after_results_simp

theorem enter0_arg3 (c : Dev nD) : W3 m ρ c (Proc.devRef .tc main_arg3) = (m ((c.tc : Thread nD τ).loc main_arg3)) := by
  dsimp only [W3, W2, W1, hostOps0, hostOps0_1, hostOps0_2]
  after_results_simp

theorem enter0_arg4 (c : Dev nD) : W3 m ρ c (Proc.devRef .tc main_arg4) = (m ((c.tc : Thread nD τ).loc main_arg4)) := by
  dsimp only [W3, W2, W1, hostOps0, hostOps0_1, hostOps0_2]
  after_results_simp

theorem enter0_arg5 (c : Dev nD) : W3 m ρ c (Proc.devRef .tc main_arg5) = (m ((c.tc : Thread nD τ).loc main_arg5)) := by
  dsimp only [W3, W2, W1, hostOps0, hostOps0_1, hostOps0_2]
  after_results_simp

/-! ## Leaving region 0: its output array, and the rest as entered -/

theorem leave0_out (c : Dev nD) : W4 m ρ c (Proc.devRef .tc main_v30) = (dat0 (V3 m ρ) c).arrAt 2 cfg0.N := W4_arr m ρ c 2

theorem leave0_dst (c : Dev nD) : W4 m ρ c (Proc.devRef .tc main_v3) = dst (m ((c.tc : Thread nD τ).loc main_arg1)) := (W4_of_ne m ρ c main_v3 (by decide)).trans (enter0_dst m ρ c)
theorem leave0_src (c : Dev nD) : W4 m ρ c (Proc.devRef .tc main_v6) = src (m ((c.tc : Thread nD τ).loc main_arg1)) := (W4_of_ne m ρ c main_v6 (by decide)).trans (enter0_src m ρ c)
theorem leave0_ew (c : Dev nD) : W4 m ρ c (Proc.devRef .tc main_v29) = ew (m ((c.tc : Thread nD τ).loc main_arg1)) := (W4_of_ne m ρ c main_v29 (by decide)).trans (enter0_ew m ρ c)
theorem leave0_arg3 (c : Dev nD) : W4 m ρ c (Proc.devRef .tc main_arg3) = (m ((c.tc : Thread nD τ).loc main_arg3)) := (W4_of_ne m ρ c main_arg3 (by decide)).trans (enter0_arg3 m ρ c)
theorem leave0_arg4 (c : Dev nD) : W4 m ρ c (Proc.devRef .tc main_arg4) = (m ((c.tc : Thread nD τ).loc main_arg4)) := (W4_of_ne m ρ c main_arg4 (by decide)).trans (enter0_arg4 m ρ c)
theorem leave0_arg5 (c : Dev nD) : W4 m ρ c (Proc.devRef .tc main_arg5) = (m ((c.tc : Thread nD τ).loc main_arg5)) := (W4_of_ne m ρ c main_arg5 (by decide)).trans (enter0_arg5 m ρ c)

/-! ## Entering region 1 -/

theorem enter1_rows (c : Dev nD) :
    W6 m ρ c (Proc.devRef .tc main_v47) = relu256 (layer256 (W4 m ρ c (Proc.devRef .tc main_v30)) (m ((c.tc : Thread nD τ).loc main_arg1)) (m ((c.tc : Thread nD τ).loc main_arg3))) := by
  dsimp only [W6, W5, hostOps1, hostOps1_1]
  after_results_simp
  rw [leave0_dst, leave0_src, leave0_ew, leave0_arg3]
  rfl

theorem enter1_dst (c : Dev nD) : W6 m ρ c (Proc.devRef .tc main_v3) = dst (m ((c.tc : Thread nD τ).loc main_arg1)) := by
  dsimp only [W6, W5, hostOps1, hostOps1_1]
  after_results_simp
  exact leave0_dst m ρ c

theorem enter1_src (c : Dev nD) : W6 m ρ c (Proc.devRef .tc main_v6) = src (m ((c.tc : Thread nD τ).loc main_arg1)) := by
  dsimp only [W6, W5, hostOps1, hostOps1_1]
  after_results_simp
  exact leave0_src m ρ c

theorem enter1_ew (c : Dev nD) : W6 m ρ c (Proc.devRef .tc main_v29) = ew (m ((c.tc : Thread nD τ).loc main_arg1)) := by
  dsimp only [W6, W5, hostOps1, hostOps1_1]
  after_results_simp
  exact leave0_ew m ρ c

theorem enter1_arg4 (c : Dev nD) : W6 m ρ c (Proc.devRef .tc main_arg4) = (m ((c.tc : Thread nD τ).loc main_arg4)) := by
  dsimp only [W6, W5, hostOps1, hostOps1_1]
  after_results_simp
  exact leave0_arg4 m ρ c

theorem enter1_arg5 (c : Dev nD) : W6 m ρ c (Proc.devRef .tc main_arg5) = (m ((c.tc : Thread nD τ).loc main_arg5)) := by
  dsimp only [W6, W5, hostOps1, hostOps1_1]
  after_results_simp
  exact leave0_arg5 m ρ c

/-! ## Leaving region 1 -/

theorem leave1_out (c : Dev nD) : W7 m ρ c (Proc.devRef .tc main_v48) = (dat1 (V6 m ρ) c).arrAt 2 cfg1.N := W7_arr m ρ c 2

theorem leave1_dst (c : Dev nD) : W7 m ρ c (Proc.devRef .tc main_v3) = dst (m ((c.tc : Thread nD τ).loc main_arg1)) := (W7_of_ne m ρ c main_v3 (by decide)).trans (enter1_dst m ρ c)
theorem leave1_src (c : Dev nD) : W7 m ρ c (Proc.devRef .tc main_v6) = src (m ((c.tc : Thread nD τ).loc main_arg1)) := (W7_of_ne m ρ c main_v6 (by decide)).trans (enter1_src m ρ c)
theorem leave1_ew (c : Dev nD) : W7 m ρ c (Proc.devRef .tc main_v29) = ew (m ((c.tc : Thread nD τ).loc main_arg1)) := (W7_of_ne m ρ c main_v29 (by decide)).trans (enter1_ew m ρ c)
theorem leave1_arg5 (c : Dev nD) : W7 m ρ c (Proc.devRef .tc main_arg5) = (m ((c.tc : Thread nD τ).loc main_arg5)) := (W7_of_ne m ρ c main_arg5 (by decide)).trans (enter1_arg5 m ρ c)

/-! ## The end of @main -/

theorem result_layer (c : Dev nD) :
    W8 m ρ c (Proc.devRef .tc main_v64) = layer128 (W7 m ρ c (Proc.devRef .tc main_v48)) (m ((c.tc : Thread nD τ).loc main_arg1)) (m ((c.tc : Thread nD τ).loc main_arg5)) := by
  dsimp only [W8, hostOps2]
  after_results_simp
  rw [leave1_dst, leave1_src, leave1_ew, leave1_arg5]
  rfl

end AnyFloats

/-! ## On the extended reals -/

variable (m : (ℓ : Loc nD τ sig) → Buf (Elt Ideal) ℓ) (ρ : Dev nD → PrngReg)

/-- The first region's output is x · W1. -/
theorem first_product (c : Dev nD) :
    W4 m ρ c (Proc.devRef .tc main_v30) = rowsProd (M := 50000) (K := 256) (N := 256) (m ((c.tc : Thread nD τ).loc main_arg0)) (m ((c.tc : Thread nD τ).loc main_arg2)) := by
  rw [leave0_out, Cert.KernelIdeal.Bridge.product0 (V3 m ρ) c]
  show rowsProd (W3 m ρ c (Proc.devRef .tc main_arg0)) (W3 m ρ c (Proc.devRef .tc main_arg2)) = _
  rw [enter0_arg0, enter0_arg2]

/-- The second region's output is (the rectified first layer) · W2. -/
theorem second_product (c : Dev nD) :
    W7 m ρ c (Proc.devRef .tc main_v48) = rowsProd (M := 50000) (K := 256) (N := 128) (W6 m ρ c (Proc.devRef .tc main_v47)) (m ((c.tc : Thread nD τ).loc main_arg4)) := by
  rw [leave1_out, Cert.KernelIdeal.Bridge.product1 (V6 m ρ) c]
  show rowsProd (W6 m ρ c (Proc.devRef .tc main_v47)) (W6 m ρ c (Proc.devRef .tc main_arg4)) = _
  rw [enter1_arg4]

/-- THE KERNEL'S RESULT: the host chain over the two rows-by-columns products. -/
theorem result_eq (c : Dev nD) :
    W8 m ρ c (Proc.devRef .tc main_v64)
      = layer128 (rowsProd (M := 50000) (K := 256) (N := 128)
          (relu256 (layer256 (rowsProd (M := 50000) (K := 256) (N := 256) (m ((c.tc : Thread nD τ).loc main_arg0)) (m ((c.tc : Thread nD τ).loc main_arg2)))
            (m ((c.tc : Thread nD τ).loc main_arg1)) (m ((c.tc : Thread nD τ).loc main_arg3))))
          (m ((c.tc : Thread nD τ).loc main_arg4))) (m ((c.tc : Thread nD τ).loc main_arg1)) (m ((c.tc : Thread nD τ).loc main_arg5)) := by
  rw [result_layer, second_product, enter1_rows, first_product]

end Cert.KernelIdeal.KValue

end
-- ==== Proof.RefValue.lean ====
/-
  What the reference computes, as the host chain over two whole-array products.

  The reference's run ends with its result at one long composed term of the arguments. Read with the chain's names it
  is: layer (128 columns) of [rectifier of layer (256 columns) of (x · W1)] · W2, both layers over the same edge list
  (the reference recomputes destinations, sources, degrees and edge weights for its second layer: the same functions
  of the same edge list, so the same terms). On the extended reals each dot_general is the rows-by-columns product.
-/
import proofs.«146569_j32315333935770_1_alg».proof.Proof.RefRun
import proofs.«146569_j32315333935770_1_alg».proof.Proof.Chain
import proofs.«146569_j32315333935770_1_alg».proof.Proof.Product

noncomputable section

namespace Cert.RefValue

open Cert.ReferenceIdeal Cert.ReferenceIdeal.Gen Cert.Chain Cert.Product
open Idealize.ShloMosaic Idealize.ShloMosaic.TcCoe Idealize.SL.Sem

section AnyFloats

variable {F : FTy → Type} [FloatOps F]

/-- The run's composed term IS the chain over the two dot_generals, whatever the float family: the same operations
    in the same order, so the equation is one of spelling. -/
theorem res_eq_chain (m : (ℓ : Loc nD τ sig) → Buf (Elt F) ℓ) (c : Dev nD) :
    Cert.ReferenceIdeal.RunP.res_main_v94 m c
      = layer128 (Host.dotGeneral dot_S50000x256_S256x128_S50000x128_1_0_0_1_n_n none
          (relu256 (layer256 (Host.dotGeneral dot_S50000x256_S256x256_S50000x256_1_0_0_1_n_n none (m ((c.tc : Thread nD τ).loc main_arg0)) (m ((c.tc : Thread nD τ).loc main_arg2)))
            (m ((c.tc : Thread nD τ).loc main_arg1)) (m ((c.tc : Thread nD τ).loc main_arg3))))
          (m ((c.tc : Thread nD τ).loc main_arg4))) (m ((c.tc : Thread nD τ).loc main_arg1)) (m ((c.tc : Thread nD τ).loc main_arg5)) := by
  unfold Cert.ReferenceIdeal.RunP.res_main_v94
  rfl

end AnyFloats

/-- The first layer's dimension numbers are the plain product 50000 × 256 by 256 × 256. -/
theorem dotA_plain : dot_S50000x256_S256x256_S50000x256_1_0_0_1_n_n = DotDims.plain 50000 256 256 := rfl

/-- The second layer's are the plain product 50000 × 256 by 256 × 128. -/
theorem dotB_plain : dot_S50000x256_S256x128_S50000x128_1_0_0_1_n_n = DotDims.plain 50000 256 128 := rfl

/-- On the extended reals the reference's result is the chain over the two rows-by-columns products. -/
theorem res_eq (m : (ℓ : Loc nD τ sig) → Buf (Elt Ideal) ℓ) (c : Dev nD) :
    Cert.ReferenceIdeal.RunP.res_main_v94 (F := Ideal) m c
      = layer128 (rowsProd (M := 50000) (K := 256) (N := 128)
          (relu256 (layer256 (rowsProd (M := 50000) (K := 256) (N := 256) (m ((c.tc : Thread nD τ).loc main_arg0)) (m ((c.tc : Thread nD τ).loc main_arg2)))
            (m ((c.tc : Thread nD τ).loc main_arg1)) (m ((c.tc : Thread nD τ).loc main_arg3))))
          (m ((c.tc : Thread nD τ).loc main_arg4))) (m ((c.tc : Thread nD τ).loc main_arg1)) (m ((c.tc : Thread nD τ).loc main_arg5)) := by
  rw [res_eq_chain, dotGeneral_eq_rowsProd _ dotA_plain, dotGeneral_eq_rowsProd _ dotB_plain]

end Cert.RefValue

end
-- ==== Proof.lean ====
/-
  A two-layer graph convolution, out = Â · relu (Â · (x W1) + b1) · W2 + b2 with Â = D^(-1/2) (A + I) D^(-1/2) built
  from an edge list: the kernel against its jnp reference, over the extended reals.

  The two programs lower the same jax code for everything but the two dense products: destinations and sources of
  the 320000 edges plus one self-loop per node, degrees by a scatter-add of ones, deg^(-1/2) where the degree is
  positive, the per-edge weight, and per layer a gather of rows by source, a scaling, a scatter-add by destination and
  the bias. The kernel computes x · W1 and h · W2 in two pallas_calls, each over 50 blocks of 1000 rows, the block and
  the whole weight matrix narrowed to bf16 and multiplied on the matrix unit into a zero accumulator; the reference uses
  one dot_general per product. On the extended reals narrowing is the identity, and entry (r, q) of either product is
  the sum over k of the row's k-th entry times the matrix's (k, q) entry: the same 256 terms in the same order on
  both sides. The blocks' write-backs cover the output, so each region's array ends at the whole product, and the two
  results are the same host chain applied to the same products (the reference builds the graph's normalisation twice,
  once per layer: the same functions of the same edge list). No finiteness of the inputs is used.

  Frames: the kernel's two are the generated frame certificates; the reference's is its run with the result dropped.
  `preserves` is `True`: the ideal pass rewrote nothing.
-/
import proofs.«146569_j32315333935770_1_alg».proof.Defs
import proofs.«146569_j32315333935770_1_alg».proof.Proof.Gen.Kernel
import proofs.«146569_j32315333935770_1_alg».proof.Proof.Gen.Kernel.Skeleton
import proofs.«146569_j32315333935770_1_alg».proof.Proof.Gen.Kernel.Launch
import proofs.«146569_j32315333935770_1_alg».proof.Proof.Gen.Kernel.Points
import proofs.«146569_j32315333935770_1_alg».proof.Proof.Gen.Kernel.Frame
import proofs.«146569_j32315333935770_1_alg».proof.Proof.Gen.KernelIdeal
import proofs.«146569_j32315333935770_1_alg».proof.Proof.Gen.KernelIdeal.Skeleton
import proofs.«146569_j32315333935770_1_alg».proof.Proof.Gen.KernelIdeal.Launch
import proofs.«146569_j32315333935770_1_alg».proof.Proof.Gen.KernelIdeal.Points
import proofs.«146569_j32315333935770_1_alg».proof.Proof.Gen.KernelIdeal.Frame
import proofs.«146569_j32315333935770_1_alg».proof.Proof.Gen.ReferenceIdeal
import proofs.«146569_j32315333935770_1_alg».proof.Proof.Gen.Pre_finite_inputs
import proofs.«146569_j32315333935770_1_alg».proof.Proof.KernelRun
import proofs.«146569_j32315333935770_1_alg».proof.Proof.KernelValue
import proofs.«146569_j32315333935770_1_alg».proof.Proof.RefRun
import proofs.«146569_j32315333935770_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed: the generated frame certificate. -/
theorem frame_kernel : Cert.frame_Kernel := fun m ρ _ => Cert.Kernel.Gen.frame m ρ

/-- The idealized kernel program: the generated frame certificate. -/
theorem frame_kernelIdeal : Cert.frame_KernelIdeal := fun m ρ _ => Cert.KernelIdeal.Gen.frame m ρ

/-- The reference: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs, from memories that agree on the arguments, end with the result array at the host chain over the
    two rows-by-columns products of those arguments. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.KRun.run_named (F := Ideal) m ρ, ?_⟩
  refine (θ_run Cert.ReferenceIdeal.defs _ _).mono (fun _ h c => ⟨(h c).1.trans ?_, (h c).2⟩)
    (Cert.ReferenceIdeal.RunP.run (F := Ideal) m' ρ')
  refine ((Cert.RefValue.res_eq m' c).trans ?_).trans (Cert.KernelIdeal.KValue.result_eq m ρ c).symm
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
